-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x256 : Shape := ⟨2, ![500000, 256]⟩
abbrev S128x256 : Shape := ⟨2, ![128, 256]⟩
abbrev S_ : Shape := ⟨0, ![]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S500000x256 .f32) (main_arg1 : FVec F S128x256 .f32) : IVec S_ 1 :=
  let main_v0 : FVec F S500000x256 .f32 := Host.absf main_arg0
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  main_v8
-- ==== Kernel.lean ====
abbrev S500000x256 : Shape := ⟨2, ![500000, 256]⟩
abbrev S128x256 : Shape := ⟨2, ![128, 256]⟩
abbrev S1x128 : Shape := ⟨2, ![1, 128]⟩
abbrev S10000x256 : Shape := ⟨2, ![10000, 256]⟩
abbrev S256x128 : Shape := ⟨2, ![256, 128]⟩
abbrev S10000x128 : Shape := ⟨2, ![10000, 128]⟩
abbrev S128 : Shape := ⟨1, ![128]⟩

abbrev nBuf : Space → Nat
  | .hbm => 3
  | .vmem => 5
  | .smem => 0
  | _ => 0

abbrev bufTy : (tb : Table) → Fin (tcTables nBuf tb) → BufTy
  | .hbm, ⟨0, _⟩ => ⟨S500000x256, .f32⟩
  | .hbm, ⟨1, _⟩ => ⟨S128x256, .f32⟩
  | .hbm, ⟨2, _⟩ => ⟨S1x128, .f32⟩
  | .local _ .vmem, ⟨0, _⟩ => ⟨S10000x256, .f32⟩
  | .local _ .vmem, ⟨1, _⟩ => ⟨S10000x256, .f32⟩
  | .local _ .vmem, ⟨2, _⟩ => ⟨S128x256, .f32⟩
  | .local _ .vmem, ⟨3, _⟩ => ⟨S1x128, .f32⟩
  | .local _ .vmem, ⟨4, _⟩ => ⟨S1x128, .f32⟩
  | _, _ => ⟨S500000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v16 : BitVec 1 := Scalar.cmpi .eq arg0 c49_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  reduces_S10000x128_S128 : S10000x128.Reduces [0] S128
  shapeCasts_S128_S1x128 : S128.ShapeCasts S1x128
  dot_S10000x256_S256x128_S10000x128_1_0_0_1_n_n_wf : DotDims.WF S10000x256 S256x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S500000x256.size a
  hwx0_0 : ∀ i : grid0.Coords, EltTy.bits .f32 = 32 ∨ (Rect.block (s := S500000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S500000x256 : Shape := ⟨2, ![500000, 256]⟩
abbrev S128x256 : Shape := ⟨2, ![128, 256]⟩
abbrev S500000x128 : Shape := ⟨2, ![500000, 128]⟩
abbrev S_ : Shape := ⟨0, ![]⟩
abbrev S128 : Shape := ⟨1, ![128]⟩
abbrev S1x128 : Shape := ⟨2, ![1, 128]⟩

abbrev nBuf : Space → Nat
  | .hbm => 6
  | .vmem => 0
  | .smem => 0
  | _ => 0

abbrev bufTy : (tb : Table) → Fin (tcTables nBuf tb) → BufTy
  | .hbm, ⟨0, _⟩ => ⟨S500000x256, .f32⟩
  | .hbm, ⟨1, _⟩ => ⟨S128x256, .f32⟩
  | .hbm, ⟨2, _⟩ => ⟨S500000x128, .f32⟩
  | .hbm, ⟨3, _⟩ => ⟨S_, .f32⟩
  | .hbm, ⟨4, _⟩ => ⟨S128, .f32⟩
  | .hbm, ⟨5, _⟩ => ⟨S1x128, .f32⟩
  | _, _ => ⟨S500000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  reducesTo_S500000x128_S128_d0 : S500000x128.ReducesTo [0] S128
  h_S_ : 0 < S_.numel
  bcast_S128_S1x128_1 : S128.BroadcastsInDim S1x128 (![1] : Fin 1 → Fin S1x128.rank)
  dot_S500000x256_S128x256_S500000x128_1_1_0_0_n_n_wf : DotDims.WF S500000x256 S128x256 S500000x128 [1] [1] [0] [0] [] []

variable [Facts₀]

def dot_S500000x256_S128x256_S500000x128_1_1_0_0_n_n : DotDims S500000x256 S128x256 S500000x128 where
  lhsContracting := [1]
  rhsContracting := [1]
  lhsNonContracting := [0]
  rhsNonContracting := [0]
  lhsBatch := []
  rhsBatch := []
  wf := dot_S500000x256_S128x256_S500000x128_1_1_0_0_n_n_wf

class Facts : Prop extends Facts₀ where

variable [Facts]
-- ==== Proof.TileSums.lean ====
/-
  Pooling a linear projection, tile by tile.

  For `x : [500000, 256]` and `W : [128, 256]` over the extended reals, row `r` of `x` projects onto output
  feature `o` as `∑ k, x[r, k] * W[o, k]`, and the pooled value of feature `o` is the sum of these over all rows:
      pooled x W o = ∑ r, ∑ k, x[r, k] * W[o, k].
  The rows are cut into 50 tiles of 10000 consecutive rows; row `q` of tile `i` is row `10000 i + q`. Addition on
  the extended reals is commutative and associative (a commutative monoid, infinities included), so the sum over
  all rows is the sum over the tiles of each tile's own sum, with no finiteness asked of the entries. The sums of the
  tiles up to tile `n` obey the recurrence an accumulator that adds one tile's sum per step follows.
-/
import Idealize.ShloMosaic.PureOps.Ideal
import Idealize.ShloMosaic.Lib.ValueIdx

noncomputable section

open scoped BigOperators

namespace Cert.Pooling

open Idealize.ShloMosaic Idealize.ShloMosaic.ValueIdx

/-- A sum over `a * b` consecutive positions is the sum, over `a` runs of `b` positions each, of every run's own
    sum: position `q` of run `i` is `b * i + q`. In any commutative monoid. -/
theorem sum_runs {M : Type*} [AddCommMonoid M] {n : ℕ} (a b : ℕ) (h : n = a * b) (f : Fin n → M)
    (pos : Fin a → Fin b → Fin n) (hpos : ∀ i q, (pos i q).val = b * i.val + q.val) :
    ∑ r, f r = ∑ i, ∑ q, f (pos i q) := by
  subst h
  calc ∑ r, f r = ∑ p : Fin a × Fin b, f (finProdFinEquiv p) := (Equiv.sum_comp finProdFinEquiv f).symm
    _ = ∑ i, ∑ q, f (finProdFinEquiv (i, q)) := Fintype.sum_prod_type _
    _ = ∑ i, ∑ q, f (pos i q) := by
      refine Finset.sum_congr rfl fun i _ => Finset.sum_congr rfl fun q _ => congrArg f (Fin.ext ?_)
      rw [hpos]
      show q.val + b * i.val = b * i.val + q.val
      exact Nat.add_comm _ _

/-- The shapes: all the rows, the projection matrix, one tile of rows, the pooled row. -/
abbrev SRows : Shape := ⟨2, ![500000, 256]⟩
abbrev SProj : Shape := ⟨2, ![128, 256]⟩
abbrev STile : Shape := ⟨2, ![10000, 256]⟩
abbrev SPooled : Shape := ⟨2, ![1, 128]⟩

/-- Row `q` of tile `i` is row `10000 i + q` of the whole array. -/
def tileRow (i : Fin 50) (q : Fin 10000) : Fin 500000 :=
  ⟨10000 * i.val + q.val, by have := i.isLt; have := q.isLt; omega⟩

/-- Row `r` projected onto output feature `o`: `∑ k, x[r, k] * W[o, k]`. -/
def proj (x : SRows.Idx → EReal) (W : SProj.Idx → EReal) (r : Fin 500000) (o : Fin 128) : EReal :=
  ∑ k : Fin 256, x (ix2 r k) * W (ix2 o k)

/-- The pooled value of feature `o`: the projections of all the rows, summed. -/
def pooled (x : SRows.Idx → EReal) (W : SProj.Idx → EReal) (o : Fin 128) : EReal :=
  ∑ r : Fin 500000, proj x W r o

/-- The pooled row: a 1 × 128 array holding, at `(0, o)`, the pooled value of feature `o`. -/
def pooledRow (x : SRows.Idx → EReal) (W : SProj.Idx → EReal) : SPooled.Idx → EReal :=
  fun j => pooled x W (j 1)

/-- One tile's share of it: the projections of the tile's 10000 rows, summed. -/
def tileSum (x : SRows.Idx → EReal) (W : SProj.Idx → EReal) (i : Fin 50) (o : Fin 128) : EReal :=
  ∑ q : Fin 10000, proj x W (tileRow i q) o

/-- The same share read off a block `xb` of 10000 rows held on its own: `∑ q, ∑ k, xb[q, k] * W[o, k]`. -/
def blockShare (xb : STile.Idx → EReal) (W : SProj.Idx → EReal) (o : Fin 128) : EReal :=
  ∑ q : Fin 10000, ∑ k : Fin 256, xb (ix2 q k) * W (ix2 o k)

/-- A block that holds the rows of tile `i`, against a copy `Wb` of the projection matrix, has tile `i`'s share. -/
theorem blockShare_eq_tileSum (x : SRows.Idx → EReal) (W : SProj.Idx → EReal) (i : Fin 50) (xb : STile.Idx → EReal)
    (Wb : SProj.Idx → EReal)
    (hx : ∀ (q : Fin 10000) (k : Fin 256), xb (ix2 q k) = x (ix2 (tileRow i q) k))
    (hW : ∀ (o : Fin 128) (k : Fin 256), Wb (ix2 o k) = W (ix2 o k)) (o : Fin 128) :
    blockShare xb Wb o = tileSum x W i o := by
  unfold blockShare tileSum proj
  exact Finset.sum_congr rfl fun q _ => Finset.sum_congr rfl fun k _ => by rw [hx, hW]

/-- The pooled value is the sum of the 50 tiles' shares. -/
theorem pooled_eq_sum_tiles (x : SRows.Idx → EReal) (W : SProj.Idx → EReal) (o : Fin 128) :
    pooled x W o = ∑ i : Fin 50, tileSum x W i o :=
  sum_runs 50 10000 (by norm_num) (fun r => proj x W r o) tileRow (fun _ _ => rfl)

/-- The shares of the tiles up to and including tile `n`, summed (a tile number past the last contributes nothing). -/
def upTo (x : SRows.Idx → EReal) (W : SProj.Idx → EReal) (n : ℕ) (o : Fin 128) : EReal :=
  ∑ i ∈ Finset.range (n + 1), if h : i < 50 then tileSum x W ⟨i, h⟩ o else 0

/-- Up to tile 0 there is tile 0's share alone. -/
theorem upTo_zero (x : SRows.Idx → EReal) (W : SProj.Idx → EReal) (o : Fin 128) :
    upTo x W 0 o = tileSum x W ⟨0, by norm_num⟩ o := by
  unfold upTo
  rw [Finset.sum_range_one, dif_pos (by norm_num : (0 : ℕ) < 50)]

/-- One more tile adds its share. -/
theorem upTo_succ (x : SRows.Idx → EReal) (W : SProj.Idx → EReal) (n : ℕ) (h : n + 1 < 50) (o : Fin 128) :
    upTo x W (n + 1) o = upTo x W n o + tileSum x W ⟨n + 1, h⟩ o := by
  unfold upTo
  rw [Finset.sum_range_succ _ (n + 1), dif_pos h]

/-- Up to the last tile it is the pooled value. -/
theorem upTo_last (x : SRows.Idx → EReal) (W : SProj.Idx → EReal) (o : Fin 128) :
    upTo x W 49 o = pooled x W o := by
  rw [pooled_eq_sum_tiles]
  unfold upTo
  show ∑ i ∈ Finset.range 50, (if h : i < 50 then tileSum x W ⟨i, h⟩ o else 0) = _
  rw [Finset.sum_range]
  exact Finset.sum_congr rfl fun i _ => dif_pos i.isLt

end Cert.Pooling

end
-- ==== Proof.RefPooled.lean ====
/-
  The reference computes the pooled row.

  The reference multiplies all the rows by the projection matrix (contracting the 256 input features of both), sums
  the 500000 × 128 product down its rows starting from zero, and lays the 128 column sums out as a 1 × 128 row. Read
  at `(0, o)` over the extended reals this is `0 + ∑ r, ∑ k, x[r, k] * W[o, k]`: the pooled value of feature `o`.
-/
import proofs.«103101_j66735201845341_1_alg».proof.Proof.Gen.ReferenceIdeal.Read
import proofs.«103101_j66735201845341_1_alg».proof.Proof.TileSums
import Idealize.ShloMosaic.PureOps.Ideal.Laws

noncomputable section

open scoped BigOperators

namespace Cert.ReferenceIdeal.PooledRow

open Cert.ReferenceIdeal Cert.ReferenceIdeal.Read Idealize.ShloMosaic Idealize.ShloMosaic.ValueIdx Cert.Pooling

/-- The reference's result at `(p, o)` is the pooled value of feature `o`. -/
theorem result_apply (x : SRows.Idx → EReal) (W : SProj.Idx → EReal) (p : Fin 1) (o : Fin 128) :
    val_main_v2 (F := Ideal) x W (ix2 p o) = pooled x W o := by
  rw [val_main_v2_apply, val_main_v1_apply, val_main_cst_apply]
  show Ideal.ofBits .f32 0x00000000#32 + _ = _
  rw [Ideal.ofBits_zero_f32, zero_add]
  unfold pooled proj
  refine Finset.sum_congr rfl fun r _ => ?_
  rw [val_main_v0_apply]
  refine Finset.sum_congr rfl fun k _ => ?_
  have el : lidx_main_v0 (idx_main_v1 (idx_main_v2 (ix2 p o)) r) k = ix2 r k :=
    funext fun a => Fin.ext (by match a with | ⟨0, _⟩ => rfl | ⟨1, _⟩ => rfl)
  have er : ridx_main_v0 (idx_main_v1 (idx_main_v2 (ix2 p o)) r) k = ix2 o k :=
    funext fun a => Fin.ext (by match a with | ⟨0, _⟩ => rfl | ⟨1, _⟩ => rfl)
  rw [el, er]

/-- So the reference's result is the pooled row. -/
theorem result_eq (x : SRows.Idx → EReal) (W : SProj.Idx → EReal) :
    val_main_v2 (F := Ideal) x W = pooledRow x W := by
  funext j
  obtain ⟨p, o, rfl⟩ : ∃ (p : Fin 1) (o : Fin 128), j = ix2 p o := ⟨j 0, j 1, eq_ix2 j⟩
  exact result_apply x W p o

end Cert.ReferenceIdeal.PooledRow

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.StepPayload.lean ====
/-
  What one grid step stores into the running total, read at an output feature.

  The step multiplies its 10000 × 256 block of rows by the transposed 128 × 256 projection matrix (an accumulation
  into zeros, so the product alone), sums the 10000 × 128 product down its rows, and adds the resulting row of 128
  column sums to the running total it loaded. Over the extended reals the narrowing of both operands to half
  precision is the identity, the transposed matrix read at `(k, o)` is the matrix at `(o, k)`, and the product at
  `(q, o)` is `∑ k, xb[q, k] * W[o, k]`; so at feature `o` the stored value is
      total[o] + ∑ q, ∑ k, xb[q, k] * W[o, k],
  the running total plus the block's share. The value stored by the reset at the first step is zero.
-/
import proofs.«103101_j66735201845341_1_alg».proof.Proof.Gen.KernelIdeal.Skeleton
import proofs.«103101_j66735201845341_1_alg».proof.Proof.LibDot2
import proofs.«103101_j66735201845341_1_alg».proof.Proof.TileSums
import Idealize.ShloMosaic.Lib.ValueLayout
import Idealize.ShloMosaic.Lib.Pipeline.Value
import Idealize.ShloMosaic.PureOps.Ideal.Laws

noncomputable section

open scoped BigOperators

namespace Cert.KernelIdeal.Step

open Cert.KernelIdeal Cert.KernelIdeal.Gen Idealize.ShloMosaic Idealize.ShloMosaic.ValueIdx Cert.Pooling

/-- The value the reset stores is zero at every index. -/
theorem reset_apply (j : S1x128.Idx) : (k0_pay1 (F := Ideal)) j = 0 := by
  unfold k0_pay1
  rw [shapeCast_self]
  show Ideal.ofBits .f32 0x00000000#32 = 0
  exact Ideal.ofBits_zero_f32

/-- Summing a 10000 × 128 array down its rows reads, at feature `o` and row `q`, the entry `(q, o)`. -/
theorem lift_rows (o : Fin 128) (q : Fin 10000) :
    reduces_S10000x128_S128.lift (ix1 o) q = ix2 q o :=
  funext fun a => Fin.ext (by match a with | ⟨0, _⟩ => rfl | ⟨1, _⟩ => rfl)

/-- The accumulate step's stored value at feature `o`: the loaded total there plus the block's share. -/
theorem step_apply (xb : Vec Ideal S10000x256 .f32) (W : Vec Ideal S128x256 .f32) (tot : Vec Ideal S1x128 .f32)
    (p : Fin 1) (o : Fin 128) :
    k0_pay2 (F := Ideal) xb W tot (ix2 p o) = tot (ix2 p o) + blockShare xb W o := by
  unfold k0_pay2
  dsimp only
  rw [shapeCast_self, addf_apply]
  refine congrArg (tot (ix2 p o) + ·) ?_
  rw [shapeCast_a_1a_apply]
  refine (Ideal.multiReduction_add_single _ _ reduces_S10000x128_S128 _ _ (ix1 o)).trans ?_
  show ∑ q : Fin 10000, _ = _
  unfold blockShare
  refine Finset.sum_congr rfl fun q _ => ?_
  rw [lift_rows]
  refine (Dot2.matmul_zero_mm_apply _ none _ _ q o).trans ?_
  refine Finset.sum_congr rfl fun k _ => ?_
  rw [truncf_apply, transpose_ix2_apply, truncf_apply]

end Cert.KernelIdeal.Step

end
-- ==== Proof.CaseValues.lean ====
/-
  What each control case of the step leaves behind, as values.

  The step has three cases over the grid: the first point (the running total is reset to zero, then the block's
  column sums are added), the points in between (the sums are added to the total the point before left), and the last
  point (the same, and the total is then copied to the output block). In every case the total ends at the step's one
  stored value, a function of the rows' block, the projection matrix and the total the step loaded: at the first
  point the loaded total is the zero row just stored; afterwards it is what the point before left. At the last point
  the output block receives what the total holds after that store, the same value.
-/
import proofs.«103101_j66735201845341_1_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem
open Idealize.ShloMosaic.Tactic

variable {F : FTy → Type} [FloatOps F]

/-- A block read from the origin with zero offsets on both axes. -/
theorem origin : (![0, 0] : Fin 2 → Nat) = fun _ => 0 := funext fun a => by fin_cases a <;> rfl

/-- In between (neither the first nor the last point): the total ends at the step's value over the total `tot` the
    point before left. -/
theorem total_between (c : Dev nD) (i : grid0.Coords) (a1 : Memref sig .tc .vmem S10000x256 .f32) (h1 : a1.IsWhole)
    (a2 : Memref sig .tc .vmem S128x256 .f32) (h2 : a2.IsWhole) (a3 : Memref sig .tc .vmem S1x128 .f32) (h3 : a3.IsWhole)
    (a4 : Memref sig .tc .vmem S1x128 .f32) (h4 : a4.IsWhole) (hc0 : ¬cond0_0 i) (hc1 : ¬cond0_1 i)
    (xb : Vec F S10000x256 .f32) (W : Vec F S128x256 .f32) (tot : Vec F S1x128 .f32) :
    sout0_B_0 c i a1 h1 a2 h2 a3 h3 a4 h4 hc0 hc1 xb W tot = k0_pay2 xb W tot := by
  unfold sout0_B_0
  rw [View.read_writes_eq_canon _ _ _ (scover0_B_0 c i a1 h1 a2 h2 a3 h3 a4 h4 hc0 hc1 xb W tot)]
  unfold kernelRun0_B
  dsimp only
  sl_unfold_words
  rw [View.canon_unit_zero origin]
  simp only [View.readAt_eq_ld, h1.read_unread, h2.read_unread, h4.read_unread,
    View.ld_unit_zero (S := S10000x256) origin, View.ld_unit_zero (S := S128x256) origin,
    View.ld_unit_zero (S := S1x128) origin]

/-- At the first point: the total ends at the step's value over the zero row the reset stored. -/
theorem total_first (c : Dev nD) (i : grid0.Coords) (a1 : Memref sig .tc .vmem S10000x256 .f32) (h1 : a1.IsWhole)
    (a2 : Memref sig .tc .vmem S128x256 .f32) (h2 : a2.IsWhole) (a3 : Memref sig .tc .vmem S1x128 .f32) (h3 : a3.IsWhole)
    (a4 : Memref sig .tc .vmem S1x128 .f32) (h4 : a4.IsWhole) (hc0 : cond0_0 i) (hc1 : ¬cond0_1 i)
    (xb : Vec F S10000x256 .f32) (W : Vec F S128x256 .f32) :
    sout0_A_0 c i a1 h1 a2 h2 a3 h3 a4 h4 hc0 hc1 xb W = k0_pay2 xb W (k0_pay1 (F := F)) := by
  unfold sout0_A_0
  rw [View.read_writes_eq_canon _ _ _ (scover0_A_0 c i a1 h1 a2 h2 a3 h3 a4 h4 hc0 hc1 xb W)]
  unfold kernelRun0_A
  dsimp only
  sl_unfold_words
  rw [View.canon_cons_unit_zero (S := S1x128) origin, View.readCov_unit_zero (S := S1x128) _ origin]
  simp only [View.readAt_eq_ld, h1.read_unread, h2.read_unread,
    View.ld_unit_zero (S := S10000x256) origin, View.ld_unit_zero (S := S128x256) origin]

/-- At the last point: the total ends at the step's value over the total `tot` the point before left, -/
theorem total_last (c : Dev nD) (i : grid0.Coords) (a1 : Memref sig .tc .vmem S10000x256 .f32) (h1 : a1.IsWhole)
    (a2 : Memref sig .tc .vmem S128x256 .f32) (h2 : a2.IsWhole) (a3 : Memref sig .tc .vmem S1x128 .f32) (h3 : a3.IsWhole)
    (a4 : Memref sig .tc .vmem S1x128 .f32) (h4 : a4.IsWhole) (hc0 : ¬cond0_0 i) (hc1 : cond0_1 i)
    (xb : Vec F S10000x256 .f32) (W : Vec F S128x256 .f32) (tot : Vec F S1x128 .f32) :
    sout0_C_0 c i a1 h1 a2 h2 a3 h3 a4 h4 hc0 hc1 xb W tot = k0_pay2 xb W tot := by
  unfold sout0_C_0
  rw [View.read_writes_eq_canon _ _ _ (scover0_C_0 c i a1 h1 a2 h2 a3 h3 a4 h4 hc0 hc1 xb W tot)]
  unfold kernelRun0_C
  dsimp only
  sl_unfold_words
  rw [View.canon_unit_zero origin]
  simp only [View.readAt_eq_ld, h1.read_unread, h2.read_unread, h4.read_unread,
    View.ld_unit_zero (S := S10000x256) origin, View.ld_unit_zero (S := S128x256) origin,
    View.ld_unit_zero (S := S1x128) origin]

/-- and the output block receives that same value: the total read back after the step's store. -/
theorem output_last (c : Dev nD) (i : grid0.Coords) (a1 : Memref sig .tc .vmem S10000x256 .f32) (h1 : a1.IsWhole)
    (a2 : Memref sig .tc .vmem S128x256 .f32) (h2 : a2.IsWhole) (a3 : Memref sig .tc .vmem S1x128 .f32) (h3 : a3.IsWhole)
    (a4 : Memref sig .tc .vmem S1x128 .f32) (h4 : a4.IsWhole) (hc0 : ¬cond0_0 i) (hc1 : cond0_1 i)
    (xb : Vec F S10000x256 .f32) (W : Vec F S128x256 .f32) (tot : Vec F S1x128 .f32) :
    out0_C_2 c i a1 h1 a2 h2 a3 h3 a4 h4 hc0 hc1 xb W tot = k0_pay2 xb W tot := by
  unfold out0_C_2
  rw [View.read_writes_eq_canon _ _ _ (cover0_C_2 c i a1 h1 a2 h2 a3 h3 a4 h4 hc0 hc1 xb W tot)]
  unfold kernelRun0_C
  dsimp only
  sl_unfold_words
  rw [View.canon_unit_zero origin, View.readCov_unit_zero (S := S1x128) _ origin]
  simp only [View.readAt_eq_ld, h1.read_unread, h2.read_unread, h4.read_unread,
    View.ld_unit_zero (S := S10000x256) origin, View.ld_unit_zero (S := S128x256) origin,
    View.ld_unit_zero (S := S1x128) origin]

end Cert.KernelIdeal.Cases

end
-- ==== Proof.Accumulated.lean ====
/-
  The kernel's output array ends at the pooled row.

  Grid point `t` of 50 works on rows `10000 t … 10000 t + 9999` (tile `t`) and on the whole projection matrix. The
  running total is carried from point to point: after point `n` it holds, at feature `o`, the sum of the shares of
  tiles 0 to `n`,
      total_n[o] = ∑ i ≤ n, ∑ q, ∑ k, x[10000 i + q, k] * W[o, k],
  by induction on `n`: the first point stores `0 + share 0`, every later point the previous total plus its tile's
  share. After the last point this is the pooled value `∑ r, ∑ k, x[r, k] * W[o, k]`. Only the last point writes the
  output block back, with the total; the output's one block is the whole `[1, 128]` array, so the array ends at the
  pooled row.
-/
import proofs.«103101_j66735201845341_1_alg».proof.Proof.Gen.KernelIdeal.Value
import proofs.«103101_j66735201845341_1_alg».proof.Proof.StepPayload
import proofs.«103101_j66735201845341_1_alg».proof.Proof.CaseValues
import proofs.«103101_j66735201845341_1_alg».proof.Proof.TileSums
import Idealize.ShloMosaic.Lib.Pipeline.Value

noncomputable section

open scoped BigOperators

namespace Cert.KernelIdeal.Pooled

open Cert.KernelIdeal Cert.KernelIdeal.Gen Idealize.ShloMosaic Idealize.ShloMosaic.TcCoe Idealize.SL.Sem
open Idealize.ShloMosaic.ValueIdx Cert.Pooling
open Idealize.ShloMosaic.Pipeline (Dat)

variable (m : (ℓ : Loc nD τ sig) → Buf (Elt Ideal) ℓ) (ρ : Dev nD → PrngReg)

/-- The two argument arrays as the kernel's region finds them, and the blocks of them a grid point works on. -/
abbrev rows (c : Dev nD) : Vec Ideal S500000x256 .f32 := V m c main_arg0
abbrev weights (c : Dev nD) : Vec Ideal S128x256 .f32 := V m c main_arg1
abbrev rowsBlock (c : Dev nD) (t : Fin cfg0.N) : Vec Ideal S10000x256 .f32 := iblk m c 0 t
abbrev weightsBlock (c : Dev nD) (t : Fin cfg0.N) : Vec Ideal S128x256 .f32 := iblk m c 1 t

/-- Point `t` works on block `(t, 0)` of the rows and on block `(0, 0)` — the whole — of the projection matrix, and
    the output's one block is block `(0, 0)`. -/
theorem rows_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem weights_index : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem output_index : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The rows' block at point `t` holds the rows of tile `t`: its row `q` is row `10000 t + q`. -/
theorem rowsBlock_apply (c : Dev nD) (t : Fin cfg0.N) (i : Fin 50) (hi : i.val = t.val) (q : Fin 10000) (k : Fin 256) :
    rowsBlock m c t (ix2 q k) = rows m c (ix2 (tileRow i q) k) := by
  show iblk m c 0 t (ix2 q k) = _
  unfold iblk
  rw [View.read_apply]
  show V m c main_arg0 (((cfg0.win 0).blk t).view.emb (ix2 q k)) = V m c main_arg0 (ix2 (tileRow i q) k)
  refine congrArg (V m c main_arg0) (funext fun a => Fin.ext ?_)
  match a with
  | ⟨0, _⟩ =>
    show win0_0.index t 0 * 10000 + 1 * q.val = 10000 * i.val + q.val
    rw [(rows_index t).1, hi]; omega
  | ⟨1, _⟩ =>
    show win0_0.index t 1 * 256 + 1 * k.val = k.val
    rw [(rows_index t).2]; omega

/-- The projection matrix's block at any point is the whole matrix. -/
theorem weightsBlock_apply (c : Dev nD) (t : Fin cfg0.N) (o : Fin 128) (k : Fin 256) :
    weightsBlock m c t (ix2 o k) = weights m c (ix2 o k) := by
  show iblk m c 1 t (ix2 o k) = _
  unfold iblk
  rw [View.read_apply]
  show V m c main_arg1 (((cfg0.win 1).blk t).view.emb (ix2 o k)) = V m c main_arg1 (ix2 o k)
  refine congrArg (V m c main_arg1) (funext fun a => Fin.ext ?_)
  match a with
  | ⟨0, _⟩ =>
    show win0_1.index t 0 * 128 + 1 * o.val = o.val
    rw [(weights_index t).1]; omega
  | ⟨1, _⟩ =>
    show win0_1.index t 1 * 256 + 1 * k.val = k.val
    rw [(weights_index t).2]; omega

/-- A point's block of rows, against the whole projection matrix, has the share of its tile. -/
theorem share_at (c : Dev nD) (t : Fin cfg0.N) (i : Fin 50) (hi : i.val = t.val) (o : Fin 128) :
    blockShare (rowsBlock m c t) (weightsBlock m c t) o = tileSum (rows m c) (weights m c) i o :=
  blockShare_eq_tileSum (rows m c) (weights m c) i (rowsBlock m c t) (weightsBlock m c t)
    (rowsBlock_apply m c t i hi) (weightsBlock_apply m c t) o

/-- After the first point the running total is the step's value over the zero row. -/
theorem total_at_first (c : Dev nD) (t : Fin cfg0.N) (h0 : t.val % 50 = 0) (h1 : ¬t.val % 50 = 49) :
    (outsAt0 m c t.val t.isLt).2
      = k0_pay2 (F := Ideal) (rowsBlock m c t) (weightsBlock m c t) (k0_pay1 (F := Ideal)) := by
  rw [outsAt0_A m c t h0 h1]
  dsimp only
  exact Cases.total_first (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h))
    (rowsBlock m c t) (weightsBlock m c t)

/-- After any later point it is the step's value over the total the point before left. -/
theorem total_at_later (c : Dev nD) (t : Fin cfg0.N) (h0 : ¬t.val % 50 = 0) :
    (outsAt0 m c t.val t.isLt).2
      = k0_pay2 (F := Ideal) (rowsBlock m c t) (weightsBlock m c t)
          (outsAt0 m c (t.val - 1) (Nat.lt_of_le_of_lt (Nat.sub_le _ _) t.isLt)).2 := by
  by_cases h1 : t.val % 50 = 49
  · rw [outsAt0_C m c t h0 h1]
    dsimp only
    exact Cases.total_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1)
      (rowsBlock m c t) (weightsBlock m c t)
      (outsAt0 m c (t.val - 1) (Nat.lt_of_le_of_lt (Nat.sub_le _ _) t.isLt)).2
  · rw [outsAt0_B m c t h0 h1]
    dsimp only
    exact Cases.total_between (F := Ideal) c (grid0.coords t) (ms0_0 t) (hs0_0 t) (ms0_1 t) (hs0_1 t) (ms0_2 t) (hs0_2 t)
      scM0_0 (Memref.isWhole_whole _) (fun h => h0 ((hcond0_0 t).mp h)) (fun h => h1 ((hcond0_1 t).mp h))
      (rowsBlock m c t) (weightsBlock m c t)
      (outsAt0 m c (t.val - 1) (Nat.lt_of_le_of_lt (Nat.sub_le _ _) t.isLt)).2

/-- At the last point the output block receives the running total. -/
theorem output_at_last (c : Dev nD) (t : Fin cfg0.N) (h0 : ¬t.val % 50 = 0) (h1 : t.val % 50 = 49) :
    (outsAt0 m c t.val t.isLt).1 = (outsAt0 m c t.val t.isLt).2 := by
  rw [outsAt0_C m c t h0 h1]
  dsimp only
  exact (Cases.output_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1)
      (rowsBlock m c t) (weightsBlock m c t)
      (outsAt0 m c (t.val - 1) (Nat.lt_of_le_of_lt (Nat.sub_le _ _) t.isLt)).2).trans
    (Cases.total_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1)
      (rowsBlock m c t) (weightsBlock m c t)
      (outsAt0 m c (t.val - 1) (Nat.lt_of_le_of_lt (Nat.sub_le _ _) t.isLt)).2).symm

/-- THE INVARIANT, by induction on the point: after point `n` the running total holds, at feature `o`, the shares
    of tiles 0 to `n` summed. -/
theorem total_eq (c : Dev nD) : ∀ (n : ℕ) (h : n < cfg0.N) (p : Fin 1) (o : Fin 128),
    (outsAt0 m c n h).2 (ix2 p o) = upTo (rows m c) (weights m c) n o
  | 0, h, p, o => by
    refine (congrFun (total_at_first m c ⟨0, h⟩ (Nat.zero_mod _) (by norm_num)) (ix2 p o)).trans ?_
    rw [Step.step_apply, Step.reset_apply, zero_add, upTo_zero]
    exact share_at m c ⟨0, h⟩ ⟨0, by norm_num⟩ rfl o
  | n + 1, h, p, o => by
    have hN : n + 1 < 50 := lt_of_lt_of_eq h (show cfg0.N = 50 from N_0)
    have h0 : ¬(⟨n + 1, h⟩ : Fin cfg0.N).val % 50 = 0 := by dsimp only; omega
    refine (congrFun (total_at_later m c ⟨n + 1, h⟩ h0) (ix2 p o)).trans ?_
    rw [Step.step_apply]
    show (outsAt0 m c n _).2 (ix2 p o) + _ = _
    rw [total_eq c n _ p o, upTo_succ _ _ n hN, share_at m c ⟨n + 1, h⟩ ⟨n + 1, hN⟩ rfl o]

/-- The one write-back, at the last point, writes the pooled row: the output block is the whole output array. -/
theorem flushed_eq (c : Dev nD) (t : Fin cfg0.N) (hf : (cfg0.win 2).flush t = true) :
    (dats m 0 c).flushed 2 t
      = ((cfg0.win 2).blk t).view.read (Elt Ideal) (pooledRow (rows m c) (weights m c)) := by
  have h49 : t.val % 50 = 49 := (flush0_2 t).mp hf
  have hN : t.val < 50 := lt_of_lt_of_eq t.isLt (show cfg0.N = 50 from N_0)
  have h0 : ¬t.val % 50 = 0 := by omega
  have ht : t.val = 49 := by omega
  have e : (outsAt0 m c t.val t.isLt).2 = pooledRow (rows m c) (weights m c) := by
    funext j
    obtain ⟨p, o, rfl⟩ : ∃ (p : Fin 1) (o : Fin 128), j = ix2 p o := ⟨j 0, j 1, eq_ix2 j⟩
    rw [total_eq m c t.val t.isLt p o]
    show upTo (rows m c) (weights m c) t.val o = pooled (rows m c) (weights m c) o
    rw [ht, upTo_last]
  rw [Value.flushed2, output_at_last m c t h0 h49, e]
  generalize pooledRow (rows m c) (weights m c) = G
  funext j
  show G j = G (((cfg0.win 2).blk t).view.emb j)
  refine congrArg G (funext fun a => Fin.ext ?_)
  match a with
  | ⟨0, _⟩ =>
    show (j 0).val = win0_2.index t 0 * 1 + 1 * (j 0).val
    rw [(output_index t).1]; omega
  | ⟨1, _⟩ =>
    show (j 1).val = win0_2.index t 1 * 128 + 1 * (j 1).val
    rw [(output_index t).2]; omega

/-- The last point of the grid. -/
def lastPoint : Fin cfg0.N := ⟨49, by rw [show cfg0.N = 50 from N_0]; norm_num⟩

/-- So the output array ends holding the pooled row: the last point's block covers it. -/
theorem final (c : Dev nD) : (dats m 0 c).arrAt 2 cfg0.N = pooledRow (rows m c) (weights m c) :=
  (dats m 0 c).arrAt_eq_of_cover 2 (pooledRow (rows m c) (weights m c)) (flushed_eq m c) fun i =>
    ⟨lastPoint, (flush0_2 lastPoint).mpr rfl, by
      show i ∈ ((View.whole main_v0).slice (win0_2.rect lastPoint)).set
      rw [View.set_slice_whole, Rect.mem_set_unit]
      intro a
      have h0 : (i 0 : Nat) < 1 := (i 0).isLt
      have h1 : (i 1 : Nat) < 128 := (i 1).isLt
      match a with
      | ⟨0, _⟩ =>
        show win0_2.index lastPoint 0 * 1 ≤ (i 0 : Nat) ∧ (i 0 : Nat) < win0_2.index lastPoint 0 * 1 + 1
        rw [(output_index lastPoint).1]; omega
      | ⟨1, _⟩ =>
        show win0_2.index lastPoint 1 * 128 ≤ (i 1 : Nat) ∧ (i 1 : Nat) < win0_2.index lastPoint 1 * 128 + 128
        rw [(output_index lastPoint).2]; omega⟩

/-- THE RUN, read: every weakly fair execution ends with the output array at the pooled row of the argument arrays,
    and the arguments unchanged. -/
theorem run : θ_run defs (onTc (τ := τ) (main (F := Ideal))) ⟨m, fun _ => 0, ρ⟩ fun r => ∀ c : Dev nD,
      r.2.mem ((c : Thread nD τ).loc main_v0)
        = pooledRow (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Pooled

end
-- ==== Proof.lean ====
/-
  Pooling a linear projection over a grid of row tiles equals the whole-array reference.

  The kernel streams `x : [500000, 256]` through 50 tiles of 10000 rows. At each tile it multiplies the tile by the
  transposed projection matrix `W : [128, 256]`, sums the product down the tile's rows, and adds the 128 column sums
  to a running total that it zeroes at the first tile and copies to the `[1, 128]` output at the last. The reference
  multiplies all the rows by the matrix and sums down all 500000 rows at once. Over the extended reals the
  narrowing of the operands is the identity and both are sums of the same products `x[r, k] * W[o, k]`:
      out[0, o] = ∑ r, ∑ k, x[r, k] * W[o, k].
  The kernel's grouping — tile by tile, each tile's sum added to the total — is re-associated into the one sum by
  commutativity and associativity of addition alone, so the finiteness of the inputs is not used.

  The kernel side: each control case of the step leaves its one stored value in the total; that value at feature `o`
  is the loaded total plus the tile's share; by induction on the grid point the total after tile `n` is the sum of
  the shares of tiles 0 to `n`; the last tile's write-back is the one block of the output array. The reference side:
  its run read one operation at a time is that sum with a leading zero.
-/
import proofs.«103101_j66735201845341_1_alg».proof.Defs
import proofs.«103101_j66735201845341_1_alg».proof.Proof.Gen.Kernel
import proofs.«103101_j66735201845341_1_alg».proof.Proof.Gen.Kernel.Frame
import proofs.«103101_j66735201845341_1_alg».proof.Proof.Gen.KernelIdeal
import proofs.«103101_j66735201845341_1_alg».proof.Proof.Gen.KernelIdeal.Frame
import proofs.«103101_j66735201845341_1_alg».proof.Proof.Gen.KernelIdeal.Value
import proofs.«103101_j66735201845341_1_alg».proof.Proof.Gen.ReferenceIdeal
import proofs.«103101_j66735201845341_1_alg».proof.Proof.Gen.ReferenceIdeal.Run
import proofs.«103101_j66735201845341_1_alg».proof.Proof.Gen.ReferenceIdeal.Read
import proofs.«103101_j66735201845341_1_alg».proof.Proof.Gen.Pre_finite_inputs
import proofs.«103101_j66735201845341_1_alg».proof.Proof.TileSums
import proofs.«103101_j66735201845341_1_alg».proof.Proof.RefPooled
import proofs.«103101_j66735201845341_1_alg».proof.Proof.Accumulated
import Idealize.ShloMosaic.Adequacy
import Idealize.ShloMosaic.Init

noncomputable section

namespace Cert.Proof

open Idealize.ShloMosaic Idealize.SL.Sem Cert.Pooling

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- Both programs end with the output array at the pooled row of the (agreeing) arguments. -/
theorem algebraic : Cert.algebraic_KernelIdeal_ReferenceIdeal := by
  intro m ρ m' ρ' _ hagree
  refine ⟨fun c => pooledRow (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Pooled.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.PooledRow.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
